-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8192x1024 : Shape := ⟨2, ![8192, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x2048x1024 .f32) (main_arg1 : FVec F S8192x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x2048x1024 : Shape := ⟨3, ![4, 2048, 1024]⟩
abbrev S8192x1024 : Shape := ⟨2, ![8192, 1024]⟩
abbrev S8192x8192 : Shape := ⟨2, ![8192, 8192]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S4x2048x8192 : Shape := ⟨3, ![4, 2048, 8192]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S4x2048x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  broadcasts_S512x1_S512x1024 : S512x1.Broadcasts S512x1024
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  transposes_S1024x1024_p1_0_S1024x1024 : S1024x1024.Transposes [1, 0] S1024x1024
  shapeCasts_S8192x8192_S4x2048x8192 : S8192x8192.ShapeCasts S4x2048x8192
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8192x1024 : Shape := ⟨2, ![8192, 1024]⟩
abbrev S_ : Shape := ⟨0, ![]⟩
abbrev S4x2048 : Shape := ⟨2, ![4, 2048]⟩
abbrev S4x2048x1 : Shape := ⟨3, ![4, 2048, 1]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8192x1024, .f32⟩
  | .hbm, ⟨2, _⟩ => ⟨S_, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S4x2048x8192, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S4x2048x1024 : S_.BroadcastsInDim S4x2048x1024 (![] : Fin 0 → Fin S4x2048x1024.rank)
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  reducesTo_S8192x1024_S8192_d1 : S8192x1024.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  dot_S4x2048x1024_S8192x1024_S4x2048x8192_2_1_01_0_n_n_wf : DotDims.WF S4x2048x1024 S8192x1024 S4x2048x8192 [2] [1] [0, 1] [0] [] []

variable [Facts₀]

def dot_S4x2048x1024_S8192x1024_S4x2048x8192_2_1_01_0_n_n : DotDims S4x2048x1024 S8192x1024 S4x2048x8192 where
  lhsContracting := [2]
  rhsContracting := [1]
  lhsNonContracting := [0, 1]
  rhsNonContracting := [0]
  lhsBatch := []
  rhsBatch := []
  wf := dot_S4x2048x1024_S8192x1024_S4x2048x8192_2_1_01_0_n_n_wf

class Facts : Prop extends Facts₀ where

variable [Facts]
-- ==== Proof.CosineSpec.lean ====
/-
  The cosine-similarity matrix, as a function of its two argument arrays over the extended reals.

  A row `u` of 1024 entries is scaled by the reciprocal square root of its squared length, the squared length
  bounded below by a small positive floor:  unitRow u k = u k · rsqrt (max (Σ j, u j · u j) floor).
  The cosine of two rows is the inner product of their scaled forms, cosine u v = Σ k, unitRow u k · unitRow v k.
  The similarity array holds, at (b, n, m), the cosine of row (b, n) of `x` — every entry first shifted by a small
  constant — and row m of `r`. The same array with the two leading axes flattened into one of 8192 rows is
  `flatSimilarity`; the two are one array read through the row-major correspondence (b, n) ↦ b · 2048 + n.
-/
import Idealize.ShloMosaic.PureOps.Ideal
import Idealize.ShloMosaic.Lib.ValueIdx

noncomputable section

open scoped BigOperators
open Idealize.ShloMosaic Idealize.ShloMosaic.ValueIdx

namespace Cert.Cosine

/-- The constant added to every entry of `x` (the float nearest 1e-7; both programs carry the same word). -/
abbrev shift : EReal := Ideal.ofBits .f32 0x33D6BF95#32

/-- The lower bound on a squared length (the float nearest 1e-12; both programs carry the same word). -/
abbrev floor : EReal := Ideal.ofBits .f32 0x2B8CBCCC#32

/-- A row scaled to unit length: each entry times the reciprocal square root of the floored squared length. -/
def unitRow (row : Fin 1024 → EReal) (k : Fin 1024) : EReal :=
  row k * Ideal.rsqrt (max (∑ j : Fin 1024, row j * row j) floor)

/-- The cosine of two rows: the inner product of the two unit rows. -/
def cosine (u v : Fin 1024 → EReal) : EReal := ∑ k : Fin 1024, unitRow u k * unitRow v k

/-- The similarity array over [4, 2048, 8192]: entry (b, n, m) is the cosine of the shifted row (b, n) of `x` and row m of `r`. -/
def similarity (x : (⟨3, ![4, 2048, 1024]⟩ : Shape).Idx → EReal) (r : (⟨2, ![8192, 1024]⟩ : Shape).Idx → EReal) :
    (⟨3, ![4, 2048, 8192]⟩ : Shape).Idx → EReal :=
  fun i => cosine (fun k => x (ix3 (i 0) (i 1) k) + shift) (fun k => r (ix2 (i 2) k))

/-- The same over [8192, 8192], the rows of `x` already flattened: entry (p, m) is the cosine of the shifted row p of `X` and row m of `r`. -/
def flatSimilarity (X : (⟨2, ![8192, 1024]⟩ : Shape).Idx → EReal) (r : (⟨2, ![8192, 1024]⟩ : Shape).Idx → EReal) :
    (⟨2, ![8192, 8192]⟩ : Shape).Idx → EReal :=
  fun i => cosine (fun k => X (ix2 (i 0) k) + shift) (fun k => r (ix2 (i 1) k))

end Cert.Cosine

end
-- ==== Proof.ReferenceSimilarity.lean ====
/-
  The reference program's result, read one operation at a time, is the similarity array.

  Entry (b, n, m) of the reference's matrix product is the sum over k of the left operand at (b, n, k) times the right
  operand at (m, k). The left operand at (b, n, k) is the shifted entry x (b, n, k) + shift times the reciprocal square root
  of the floored sum of the squares of the shifted row (b, n); the right operand at (m, k) is r (m, k) times the reciprocal
  square root of the floored sum of the squares of row m. The two row sums start from the zero word, which is the real 0.
  That is `cosine` of the shifted row (b, n) of x and row m of r, term by term.
-/
import proofs.«160345_j66563403153867_1_alg».proof.Proof.Gen.ReferenceIdeal.Read
import proofs.«160345_j66563403153867_1_alg».proof.Proof.CosineSpec
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Cosine

/-- The left operand's index at output (b, n, m) and contraction coordinate k is (b, n, k). -/
theorem left_index (i : S4x2048x8192.Idx) (k : Fin 1024) : lidx_main_v18 i k = ix3 (i 0) (i 1) k :=
  funext fun a => Fin.ext (by match a with | ⟨0, _⟩ => rfl | ⟨1, _⟩ => rfl | ⟨2, _⟩ => rfl)

/-- The row the left operand's scale at (b, n, k) sums over: entry j of that row is at (b, n, j). -/
theorem left_row_index (i : S4x2048x1024.Idx) (j : Fin 1024) :
    idx_main_v3 (idx_main_v4 (idx_main_v8 i)) j = ix3 (i 0) (i 1) j :=
  funext fun a => Fin.ext (by match a with | ⟨0, _⟩ => rfl | ⟨1, _⟩ => rfl | ⟨2, _⟩ => rfl)

/-- The right operand's index at output (b, n, m) and contraction coordinate k is (m, k). -/
theorem right_index (i : S4x2048x8192.Idx) (k : Fin 1024) : ridx_main_v18 i k = ix2 (i 2) k :=
  funext fun a => Fin.ext (by match a with | ⟨0, _⟩ => rfl | ⟨1, _⟩ => rfl)

/-- The row the right operand's scale at (m, k) sums over: entry j of that row is at (m, j). -/
theorem right_row_index (i : S8192x1024.Idx) (j : Fin 1024) :
    idx_main_v11 (idx_main_v12 (idx_main_v16 i)) j = ix2 (i 0) j :=
  funext fun a => Fin.ext (by match a with | ⟨0, _⟩ => rfl | ⟨1, _⟩ => rfl)

/-- The left operand at (b, n, k) is entry k of the unit form of the shifted row (b, n) of x. -/
theorem left_factor (x : (⟨S4x2048x1024, .f32⟩ : BufTy).Contents (Elt Ideal)) (i : S4x2048x8192.Idx) (k : Fin 1024) :
    val_main_v9 (F := Ideal) x (lidx_main_v18 i k) = unitRow (fun k => x (ix3 (i 0) (i 1) k) + shift) k := by
  rw [val_main_v9_apply, val_main_v8_apply, val_main_v7_apply, val_main_v6_apply, val_main_v4_apply, val_main_v3_apply,
    val_main_v5_apply, val_main_v1_apply, val_main_v0_apply, val_main_cst_apply, val_main_cst_0_apply, val_main_cst_1_apply]
  simp only [val_main_v2_apply, val_main_v1_apply, val_main_v0_apply, val_main_cst_apply, left_index,
    Ideal.ofBits_def, Ideal.addf_def, Ideal.mulf_def, Ideal.maximumf_def, Ideal.hostUnary_rsqrt_def,
    Ideal.ofBits_zero_f32, zero_add]
  have e : ∀ j : Fin 1024, x (idx_main_v3 (idx_main_v4 (idx_main_v8 (ix3 (i 0) (i 1) k))) j) = x (ix3 (i 0) (i 1) j) :=
    fun j => congrArg x (left_row_index _ j)
  unfold unitRow
  exact congrArg (fun s => (x (ix3 (i 0) (i 1) k) + shift) * Ideal.rsqrt (max s floor))
    (Finset.sum_congr rfl fun j _ => by rw [e j])

/-- The right operand at (m, k) is entry k of the unit form of row m of r. -/
theorem right_factor (r : (⟨S8192x1024, .f32⟩ : BufTy).Contents (Elt Ideal)) (i : S4x2048x8192.Idx) (k : Fin 1024) :
    val_main_v17 (F := Ideal) r (ridx_main_v18 i k) = unitRow (fun k => r (ix2 (i 2) k)) k := by
  rw [val_main_v17_apply, val_main_v16_apply, val_main_v15_apply, val_main_v14_apply, val_main_v12_apply, val_main_v11_apply,
    val_main_v13_apply, val_main_cst_2_apply, val_main_cst_3_apply]
  simp only [val_main_v10_apply, right_index,
    Ideal.ofBits_def, Ideal.mulf_def, Ideal.maximumf_def, Ideal.hostUnary_rsqrt_def,
    Ideal.ofBits_zero_f32, zero_add]
  have e : ∀ j : Fin 1024, r (idx_main_v11 (idx_main_v12 (idx_main_v16 (ix2 (i 2) k))) j) = r (ix2 (i 2) j) :=
    fun j => congrArg r (right_row_index _ j)
  unfold unitRow
  exact congrArg (fun s => r (ix2 (i 2) k) * Ideal.rsqrt (max s floor))
    (Finset.sum_congr rfl fun j _ => by rw [e j])

/-- The reference's result is the similarity array of its two arguments. -/
theorem reference_is_similarity (x : (⟨S4x2048x1024, .f32⟩ : BufTy).Contents (Elt Ideal))
    (r : (⟨S8192x1024, .f32⟩ : BufTy).Contents (Elt Ideal)) :
    val_main_v18 (F := Ideal) x r = similarity x r := by
  funext i
  rw [val_main_v18_apply]
  unfold similarity cosine
  exact Finset.sum_congr rfl fun k _ => by rw [left_factor, right_factor]

end Cert.ReferenceIdeal.RefValue

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.BodyCosine.lean ====
/-
  What the kernel body stores at one entry of its output block.

  The body loads a [512, 1024] block `a` of the flattened x and a [1024, 1024] block `b` of r. It shifts every entry of
  `a`, scales each row of the shifted block and each row of `b` to unit length (row sum of squares, floored, reciprocal
  square root, spread back along the row), narrows both to a shorter float format (no change of value over the extended
  reals), transposes the second and multiplies the two matrices into a zero accumulator. So the stored entry (p, q) is the
  sum over k of the unit form of shifted row p of `a` at k times the unit form of row q of `b` at k: their cosine.
-/
import proofs.«160345_j66563403153867_1_alg».proof.Proof.Gen.KernelIdeal.Skeleton
import proofs.«160345_j66563403153867_1_alg».proof.Proof.CosineSpec
import proofs.«160345_j66563403153867_1_alg».proof.Proof.LibPlainMatmul
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Cosine

/-- A vector of n entries viewed as a column [n, 1] reads, at (p, 0), the vector's entry p. -/
theorem column_apply {α : Type} {n : Nat} (v : (⟨1, ![n]⟩ : Shape).Idx → α)
    (h : (⟨1, ![n]⟩ : Shape).ShapeCasts ⟨2, ![n, 1]⟩) (p : Fin n) (z : Fin 1) :
    shapeCast ⟨2, ![n, 1]⟩ v h (ix2 p z) = v (ix1 p) :=
  shapeCast_apply v h (ix2 p z) (ix1 p) (by
    rw [Shape.rowMajor_val_one, Shape.rowMajor_val_two]
    show p.val = p.val * 1 + z.val
    have := z.isLt
    omega)

/-- A column [n, 1] spread along rows of c entries reads, at (p, k), the column's entry (p, 0). -/
theorem columnSpread_apply {α : Type} {n c : Nat} (v : (⟨2, ![n, 1]⟩ : Shape).Idx → α)
    (h : (⟨2, ![n, 1]⟩ : Shape).Broadcasts ⟨2, ![n, c]⟩) (p : Fin n) (k : Fin c) :
    broadcastTo ⟨2, ![n, c]⟩ v h (ix2 p k) = v (ix2 p (0 : Fin 1)) := by
  refine broadcastTo_apply v h (ix2 p k) (ix2 p (0 : Fin 1)) fun a => ?_
  match a with
  | ⟨0, _⟩ =>
    show p.val = if n = 1 then 0 else p.val
    split
    · have := p.isLt; omega
    · rfl
  | ⟨1, _⟩ => rfl

/-- The sum along each row of an [n, c] matrix, from the zero word, reads at p the sum over k of the entries (p, k). -/
theorem rowSum_apply {n c : Nat} (src : FVec Ideal ⟨2, ![n, c]⟩ .f32)
    (h : (⟨2, ![n, c]⟩ : Shape).Reduces [1] ⟨1, ![n]⟩) (p : Fin n) :
    multiReduction (F := Ideal) .add [1] ⟨1, ![n]⟩ src 0x00000000#32 h (.inl rfl) rfl (ix1 p) = ∑ k : Fin c, src (ix2 p k) := by
  refine (Ideal.multiReduction_add_single src 0x00000000#32 h (.inl rfl) rfl (ix1 p)).trans ?_
  refine Finset.sum_congr rfl fun k _ => congrArg src ?_
  exact funext fun a => Fin.ext (by match a with | ⟨0, _⟩ => rfl | ⟨1, _⟩ => rfl)

/-- A matrix whose rows are scaled to unit length the way the body does it — times the row's floored squared length's
    reciprocal square root, taken as a column and spread back along the row — reads at (p, k) entry k of the unit form of row p. -/
theorem scaled_apply {n : Nat} (y : FVec Ideal ⟨2, ![n, 1024]⟩ .f32)
    (hr : (⟨2, ![n, 1024]⟩ : Shape).Reduces [1] ⟨1, ![n]⟩) (hc : (⟨1, ![n]⟩ : Shape).ShapeCasts ⟨2, ![n, 1]⟩)
    (hb : (⟨2, ![n, 1]⟩ : Shape).Broadcasts ⟨2, ![n, 1024]⟩) (p : Fin n) (k : Fin 1024) :
    mulf y (broadcastTo ⟨2, ![n, 1024]⟩ (rsqrt (maximumf (shapeCast ⟨2, ![n, 1]⟩
        (multiReduction .add [1] ⟨1, ![n]⟩ (mulf y y) 0x00000000#32 hr (.inl rfl) rfl) hc)
        (broadcast ⟨2, ![n, 1]⟩ (Scalar.ofBits .f32 0x2B8CBCCC#32)))) hb) (ix2 p k)
      = unitRow (fun k => y (ix2 p k)) k := by
  show y (ix2 p k) * (broadcastTo ⟨2, ![n, 1024]⟩ _ hb (ix2 p k)) = _
  rw [columnSpread_apply]
  show y (ix2 p k) * Ideal.rsqrt (max (shapeCast ⟨2, ![n, 1]⟩ _ hc (ix2 p (0 : Fin 1))) floor) = _
  rw [column_apply, rowSum_apply]
  rfl

/-- THE STORED ENTRY: at (p, q) the body's product is the cosine of shifted row p of the first block and row q of the second. -/
theorem payload_apply (a : Vec Ideal S512x1024 .f32) (b : Vec Ideal S1024x1024 .f32) (p : Fin 512) (q : Fin 1024) :
    k0_pay1 (F := Ideal) a b (ix2 p q) = cosine (fun k => a (ix2 p k) + shift) (fun k => b (ix2 q k)) := by
  unfold k0_pay1
  refine (Cert.Lib.PlainMatmul.apply _ rfl rfl rfl rfl rfl rfl none _ _ p q).trans ?_
  refine Finset.sum_congr rfl fun k _ => ?_
  refine congrArg₂ (· * ·) ?_ ?_
  · refine (truncf_apply (ψ := .bf16) (φ := .f32) _ _ _).trans ?_
    refine (scaled_apply (n := 512) _ _ _ _ p k).trans ?_
    rw [shapeCast_self]
    rfl
  · refine (transpose_ix2_apply _ _ k q).trans ?_
    refine (truncf_apply (ψ := .bf16) (φ := .f32) _ _ _).trans ?_
    exact scaled_apply (n := 1024) b _ _ _ q k

end Cert.KernelIdeal.Body

end
-- ==== Proof.CosineFlatten.lean ====
/-
  The similarity array and its flattened form are one array.

  Merging the two leading axes of x row-major sends row (b, n) to row 2048 b + n; splitting the row axis of the
  [8192, 8192] array back into [4, 2048] sends (b, n, m) to (2048 b + n, m). Entry (b, n, m) of the split flat array is
  therefore the cosine of shifted row 2048 b + n of the merged x — which is shifted row (b, n) of x — and row m of r.
-/
import proofs.«160345_j66563403153867_1_alg».proof.Proof.CosineSpec
import Idealize.ShloMosaic.Lib.Pipeline.Value

noncomputable section

open scoped BigOperators
open Idealize.ShloMosaic Idealize.ShloMosaic.ValueIdx

namespace Cert.Cosine

/-- The flat similarity array of the merged x, its row axis split, is the similarity array of x. -/
theorem split_flatSimilarity (x : (⟨3, ![4, 2048, 1024]⟩ : Shape).Idx → EReal) (r : (⟨2, ![8192, 1024]⟩ : Shape).Idx → EReal)
    (hmerge : (⟨3, ![4, 2048, 1024]⟩ : Shape).ShapeCasts ⟨2, ![8192, 1024]⟩)
    (hsplit : (⟨2, ![8192, 8192]⟩ : Shape).ShapeCasts ⟨3, ![4, 2048, 8192]⟩) :
    shapeCast ⟨3, ![4, 2048, 8192]⟩ (flatSimilarity (shapeCast ⟨2, ![8192, 1024]⟩ x hmerge) r) hsplit = similarity x r := by
  funext i
  obtain ⟨b, n, q, rfl⟩ : ∃ (b : Fin 4) (n : Fin 2048) (q : Fin 8192), i = ix3 b n q := ⟨i 0, i 1, i 2, eq_ix3 i⟩
  have hp : b.val * 2048 + n.val < 8192 := by have := b.isLt; have := n.isLt; omega
  rw [shapeCast_apply _ hsplit (ix3 b n q) (ix2 (⟨b.val * 2048 + n.val, hp⟩ : Fin 8192) q) (by
    rw [Shape.rowMajor_val_two, Shape.rowMajor_val_three]
    show (b.val * 2048 + n.val) * 8192 + q.val = (b.val * 2048 + n.val) * 8192 + q.val
    rfl)]
  unfold flatSimilarity similarity
  refine congrArg₂ cosine (funext fun k => congrArg (· + shift) ?_) rfl
  exact shapeCast_apply x hmerge (ix2 (⟨b.val * 2048 + n.val, hp⟩ : Fin 8192) k) (ix3 b n k) (by
    rw [Shape.rowMajor_val_two, Shape.rowMajor_val_three]
    show (b.val * 2048 + n.val) * 1024 + k.val = (b.val * 2048 + n.val) * 1024 + k.val
    rfl)

end Cert.Cosine

end
-- ==== Proof.KernelSimilarity.lean ====
/-
  The kernel program's result array, after the run, is the similarity array.

  The grid has 16 × 8 points. At point (a, b) the pipeline hands the body rows 512a … 512a + 511 of the flattened x and
  rows 1024b … 1024b + 1023 of r, and writes the body's [512, 1024] block back to rows 512a …, columns 1024b … of the
  [8192, 8192] result. By the body's entry formula each written entry (p, m) is the cosine of shifted row p of the
  flattened x and row m of r; the 128 blocks tile the array, so the array ends as `flatSimilarity`. The flattened x is
  the argument x with its two leading axes merged row-major, and the program's result is the [8192, 8192] array with its
  row axis split back into [4, 2048]: entry (b, n, m) is the flat entry (2048 b + n, m), whose row of flattened x is row
  (b, n) of x. So the result is `similarity` of the two arguments.
-/
import proofs.«160345_j66563403153867_1_alg».proof.Proof.Gen.KernelIdeal.Frame
import proofs.«160345_j66563403153867_1_alg».proof.Proof.BodyCosine
import proofs.«160345_j66563403153867_1_alg».proof.Proof.CosineFlatten
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Similarity

open Cert.KernelIdeal Cert.KernelIdeal.Gen Idealize.ShloMosaic.ValueIdx Cert.Cosine

variable (m : (ℓ : Loc nD τ sig) → Buf (Elt Ideal) ℓ) (ρ : Dev nD → PrngReg)

theorem offsets_zero : (![0, 0] : Fin 2 → Nat) = fun _ => 0 := funext fun a => by fin_cases a <;> rfl

/-- At every grid point the x block's row-block index is the output's, the r block's row-block index is the output's
    column-block index, and both input blocks span the whole feature axis. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every one of the 16 × 8 output blocks is some point's. -/
theorem block_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- An entry of the body's product, for blocks whose rows are rows of two larger arrays, is an entry of the flat similarity array. -/
theorem block_entry (A : Vec Ideal S512x1024 .f32) (B : Vec Ideal S1024x1024 .f32)
    (X R : (⟨2, ![8192, 1024]⟩ : Shape).Idx → EReal) (j : S512x1024.Idx) (i : (⟨2, ![8192, 8192]⟩ : Shape).Idx)
    (hA : ∀ k : Fin 1024, A (ix2 (j 0) k) = X (ix2 (i 0) k))
    (hB : ∀ k : Fin 1024, B (ix2 (j 1) k) = R (ix2 (i 1) k)) :
    k0_pay1 (F := Ideal) A B j = flatSimilarity X R i := by
  have e : flatSimilarity X R i = cosine (fun k => X (ix2 (i 0) k) + shift) (fun k => R (ix2 (i 1) k)) := rfl
  obtain ⟨p, q, rfl⟩ : ∃ (p : Fin 512) (q : Fin 1024), j = ix2 p q := ⟨j 0, j 1, eq_ix2 j⟩
  rw [e, Body.payload_apply]
  exact congrArg₂ cosine (funext fun k => congrArg (· + shift) (hA k)) (funext hB)

/-- What point `t` writes back is block `t` of the flat similarity array of the flattened x and r as the region finds them. -/
theorem flushed_eq (c : Dev nD) (t : Fin cfg0.N) :
    (dats m 0 c).flushed 2 t
      = ((cfg0.win 2).blk t).view.read (Elt Ideal) (flatSimilarity (V m c main_v0) (V m c main_arg1)) := by
  show (cfg0.win 2).cut (grid0.coords t) ((dats m 0 c).after 2 t) = _
  rw [after0_2]
  unfold out0_2
  rw [View.canon_unit_zero offsets_zero]
  simp only [View.ld_unit_zero (S := S512x1024) offsets_zero, View.ld_unit_zero (S := S1024x1024) offsets_zero]
  obtain ⟨e0, e1, e2, e3⟩ := block_indices t
  funext j
  refine block_entry (iblk m c 0 t) (iblk m c 1 t) (V m c main_v0) (V m c main_arg1) j (((cfg0.win 2).blk t).view.emb j)
    (fun k => ?_) (fun k => ?_)
  · show V m c main_v0 (((cfg0.win 0).blk t).view.emb (ix2 (j 0) k)) = V m c main_v0 (ix2 ((((cfg0.win 2).blk t).view.emb j) 0) k)
    refine congrArg (V m c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * k.val = k.val; omega
  · show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * k.val = k.val; omega

/-- An index of the result array is in point `t`'s block iff each coordinate is in the block's range on its axis. -/
theorem mem_block (t : Fin cfg0.N) (i : S8192x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every index of the result array lies in the block of the point whose block indices are its coordinates' quotients. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The [8192, 8192] array after the region: the flat similarity array. -/
theorem final_array (c : Dev nD) :
    (dats m 0 c).arrAt 2 cfg0.N = flatSimilarity (V m c main_v0) (V m c main_arg1) :=
  (dats m 0 c).arrAt_eq_of_cover 2 _ (fun t _ => flushed_eq m c t) covered

/-- The flattened x the region finds is the argument x, its leading two axes merged. -/
theorem flat_x (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl

/-- The program's result after the tail: the region's array with its row axis split. -/
theorem tail_result (c : Dev nD) : Pipeline.afterTail₀ cfgs (dats m) 0 (V0 m) [hostOps1] c main_v2
    = shapeCast S4x2048x8192 ((dats m 0 c).arrAt 2 cfg0.N) shapeCasts_S8192x8192_S4x2048x8192 := by
  unfold Pipeline.afterTail₀
  show StableHlo.after hostOps1 _ (Proc.devRef .tc main_v2) = _
  after_results
  exact congrArg (fun A : S8192x8192.Idx → EReal => shapeCast S4x2048x8192 A shapeCasts_S8192x8192_S4x2048x8192)
    (Pipeline.withArrays_arr spec0 launch0.win.arr_inj c (V0 m c) (fun w => (dats m 0 c).arrAt w cfg0.N) 2)

/-- The program's result after the run, as a function of the two arguments: the similarity array. -/
theorem result_eq (c : Dev nD) : Pipeline.afterTail₀ cfgs (dats m) 0 (V0 m) [hostOps1] c main_v2
    = similarity (m ((c : Thread nD τ).loc main_arg0)) (m ((c : Thread nD τ).loc main_arg1)) := by
  rw [tail_result, final_array, flat_x, V_main_arg1]
  exact split_flatSimilarity _ _ _ _

/-- THE RUN, READ: every weakly fair execution of the program ends with its result at the similarity array of its two
    arguments, and the arguments as they were. -/
theorem run : θ_run defs (onTc (τ := τ) (main (F := Ideal))) ⟨m, fun _ => 0, ρ⟩ fun r => ∀ c : Dev nD,
      r.2.mem ((c : Thread nD τ).loc main_v2)
        = similarity (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Similarity

end
-- ==== Proof.lean ====
/-
  Pairwise cosine similarity: the kernel program and its reference compute one array.

  Both programs take x : [4, 2048, 1024] and r : [8192, 1024] and return, at (b, n, m), the cosine of row (b, n) of x — every
  entry first shifted by one small constant — and row m of r, where a row is scaled to unit length by the reciprocal
  square root of its squared length floored at a second small constant (`Cert.Cosine.similarity`). The two constants are
  the same float words in both programs, so they are never evaluated.

  The reference builds the two scaled operands whole and contracts the feature axis in one product
  (`Cert.ReferenceIdeal.RefValue.reference_is_similarity`). The kernel program merges the two leading axes of x, tiles
  the [8192, 8192] result into 16 × 8 blocks, computes on each block the scaled rows of its 512 rows of x and of its 1024
  rows of r (each row's scale depends only on that row, so a block sees whole rows and the scale is the reference's),
  multiplies them, and splits the result's row axis back (`Cert.KernelIdeal.Similarity.run`). Over the extended reals the
  narrowing of the operands before the product is the identity, the product into a zero accumulator is the plain sum of
  products, and both row sums start from zero; no algebraic law beyond 0 + s = s is used, so the precondition that the
  inputs are finite is not needed for the value and is never opened.

  The three frames: the two kernel programs' are the generated frame certificates; the reference has no kernel and its
  frame is its run with the result dropped. The idealization rewrote nothing, so `preserves` is `True`.
-/
import proofs.«160345_j66563403153867_1_alg».proof.Defs
import proofs.«160345_j66563403153867_1_alg».proof.Proof.Gen.Kernel
import proofs.«160345_j66563403153867_1_alg».proof.Proof.Gen.Kernel.Skeleton
import proofs.«160345_j66563403153867_1_alg».proof.Proof.Gen.Kernel.Launch
import proofs.«160345_j66563403153867_1_alg».proof.Proof.Gen.Kernel.Points
import proofs.«160345_j66563403153867_1_alg».proof.Proof.Gen.Kernel.Frame
import proofs.«160345_j66563403153867_1_alg».proof.Proof.Gen.KernelIdeal
import proofs.«160345_j66563403153867_1_alg».proof.Proof.Gen.KernelIdeal.Skeleton
import proofs.«160345_j66563403153867_1_alg».proof.Proof.Gen.KernelIdeal.Launch
import proofs.«160345_j66563403153867_1_alg».proof.Proof.Gen.KernelIdeal.Points
import proofs.«160345_j66563403153867_1_alg».proof.Proof.Gen.KernelIdeal.Frame
import proofs.«160345_j66563403153867_1_alg».proof.Proof.Gen.ReferenceIdeal
import proofs.«160345_j66563403153867_1_alg».proof.Proof.Gen.Pre_finite_inputs
import proofs.«160345_j66563403153867_1_alg».proof.Proof.Gen.ReferenceIdeal.Run
import proofs.«160345_j66563403153867_1_alg».proof.Proof.Gen.ReferenceIdeal.Read
import proofs.«160345_j66563403153867_1_alg».proof.Proof.ReferenceSimilarity
import proofs.«160345_j66563403153867_1_alg».proof.Proof.KernelSimilarity
import Idealize.ShloMosaic.Adequacy
import Idealize.ShloMosaic.Init

noncomputable section

namespace Cert.Proof

open Idealize.ShloMosaic Idealize.SL.Sem

/-- The kernel program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and r, both idealized programs end with the similarity array of x and r. -/
theorem algebraic : Cert.algebraic_KernelIdeal_ReferenceIdeal := by
  intro m ρ m' ρ' _ hagree
  refine ⟨_, Cert.KernelIdeal.Similarity.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.reference_is_similarity,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
